-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x4 .f32) (main_arg5 : FVec F S4 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x4 .f32 := Host.absf main_arg4
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x4 : Shape := ⟨2, ![100000, 4]⟩
abbrev S25000x16 : Shape := ⟨2, ![25000, 16]⟩
abbrev S25000x4 : Shape := ⟨2, ![25000, 4]⟩
abbrev S3300000x4 : Shape := ⟨2, ![3300000, 4]⟩
abbrev S1x4 : Shape := ⟨2, ![1, 4]⟩
abbrev S25000 : Shape := ⟨1, ![25000]⟩
abbrev S25000x1 : Shape := ⟨2, ![25000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x4, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x4, .f32⟩
  | .hbm, ⟨79, _⟩ => ⟨S3300000x1, .f32⟩
  | .hbm, ⟨80, _⟩ => ⟨S3300000x4, .f32⟩
  | .hbm, ⟨81, _⟩ => ⟨S3300000x4, .f32⟩
  | .hbm, ⟨82, _⟩ => ⟨S_, .f32⟩
  | .hbm, ⟨83, _⟩ => ⟨S100000x4, .f32⟩
  | .hbm, ⟨84, _⟩ => ⟨S3300000x1, .i32⟩
  | .hbm, ⟨85, _⟩ => ⟨S100000x4, .f32⟩
  | .hbm, ⟨86, _⟩ => ⟨S1x4, .f32⟩
  | .hbm, ⟨87, _⟩ => ⟨S100000x4, .f32⟩
  | .hbm, ⟨88, _⟩ => ⟨S100000x4, .f32⟩
  | .hbm, ⟨89, _⟩ => ⟨S100000x4, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S25000x16, .f32⟩
  | .local _ .vmem, ⟨6, _⟩ => ⟨S25000x16, .f32⟩
  | .local _ .vmem, ⟨7, _⟩ => ⟨S16x4, .f32⟩
  | .local _ .vmem, ⟨8, _⟩ => ⟨S25000x4, .f32⟩
  | .local _ .vmem, ⟨9, _⟩ => ⟨S25000x4, .f32⟩
  | .local _ .vmem, ⟨10, _⟩ => ⟨S25000x4, .f32⟩
  | .local _ .vmem, ⟨11, _⟩ => ⟨S25000x4, .f32⟩
  | .local _ .vmem, ⟨12, _⟩ => ⟨S25000x4, .f32⟩
  | .local _ .vmem, ⟨13, _⟩ => ⟨S25000x4, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S25000x16_S25000x16_0_0 : ∀ a, (![0, 0] : Fin 2 → Nat) a + S25000x16.size a ≤ S25000x16.size a
  h_S25000x16 : 0 < S25000x16.numel
  shapeCasts_S25000x16_S25000x16 : S25000x16.ShapeCasts S25000x16
  inb_S16x4_S16x4_0_0 : ∀ a, (![0, 0] : Fin 2 → Nat) a + S16x4.size a ≤ S16x4.size a
  h_S16x4 : 0 < S16x4.numel
  inb_S25000x4_S25000x4_0_0 : ∀ a, (![0, 0] : Fin 2 → Nat) a + S25000x4.size a ≤ S25000x4.size a
  h_S25000x4 : 0 < S25000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  shapeCasts_S25000x4_S25000x4 : S25000x4.ShapeCasts S25000x4
  reduces_S25000x4_S25000 : S25000x4.Reduces [1] S25000
  shapeCasts_S25000_S25000x1 : S25000.ShapeCasts S25000x1
  broadcasts_S25000x1_S25000x4 : S25000x1.Broadcasts S25000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x4_S25000x4_1_0_0_1_n_n_wf : DotDims.WF S25000x16 S16x4 S25000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x4.size a ≤ S16x4.size a
  hwx1_1 : ∀ i : grid1.Coords, EltTy.bits .f32 = 32 ∨ (Rect.block (s := S16x4) S16x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x4.size a ≤ S100000x4.size a
  hwx1_2 : ∀ i : grid1.Coords, EltTy.bits .f32 = 32 ∨ (Rect.block (s := S100000x4) S25000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x4.size a ≤ S100000x4.size a
  hwx2_0 : ∀ i : grid2.Coords, EltTy.bits .f32 = 32 ∨ (Rect.block (s := S100000x4) S25000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S25000x4.size a ≤ S100000x4.size a
  hwx2_1 : ∀ i : grid2.Coords, EltTy.bits .f32 = 32 ∨ (Rect.block (s := S100000x4) S25000x4.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x4_S25000x4_1_0_0_1_n_n : DotDims S25000x16 S16x4 S25000x4 where
  lhsContracting := [1]
  rhsContracting := [0]
  lhsNonContracting := [0]
  rhsNonContracting := [1]
  lhsBatch := []
  rhsBatch := []
  wf := dot_S25000x16_S16x4_S25000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S25000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S25000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S25000x4.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x4 : Shape := ⟨2, ![100000, 4]⟩
abbrev S3300000x4 : Shape := ⟨2, ![3300000, 4]⟩
abbrev S1x4 : Shape := ⟨2, ![1, 4]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x4, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x4, .f32⟩
  | .hbm, ⟨79, _⟩ => ⟨S3300000x1, .f32⟩
  | .hbm, ⟨80, _⟩ => ⟨S3300000x4, .f32⟩
  | .hbm, ⟨81, _⟩ => ⟨S3300000x4, .f32⟩
  | .hbm, ⟨82, _⟩ => ⟨S_, .f32⟩
  | .hbm, ⟨83, _⟩ => ⟨S100000x4, .f32⟩
  | .hbm, ⟨84, _⟩ => ⟨S3300000x1, .i32⟩
  | .hbm, ⟨85, _⟩ => ⟨S100000x4, .f32⟩
  | .hbm, ⟨86, _⟩ => ⟨S1x4, .f32⟩
  | .hbm, ⟨87, _⟩ => ⟨S100000x4, .f32⟩
  | .hbm, ⟨88, _⟩ => ⟨S100000x4, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x4, .f32⟩
  | .hbm, ⟨96, _⟩ => ⟨S100000x4, .f32⟩
  | .hbm, ⟨97, _⟩ => ⟨S100000x4, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x4, .f32⟩
  | .hbm, ⟨103, _⟩ => ⟨S100000x4, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.Stretches.lean ====
import proofs.«144812_j40638980555308_1_alg».proof.Proof.Gen.KernelIdeal.Launch
import proofs.«144812_j40638980555308_1_alg».proof.Proof.RefRead
import Idealize.ShloMosaic.Lib.StableHlo.Run

/-!
  The plain array operations between the pipelined regions, read as the stages of the array program.

  The kernel program and the array program apply the same plain operations around the three places where they differ
  (two matrix products and the final log-softmax): the edge list with its self loops, the degree normalisation, and
  for each layer gather · scale · scatter-add · bias (and the rectifier after the first). Here each stretch of the
  kernel program's plain operations is read off a valuation `X` of its buffers: if the buffers a stretch reads hold
  the array program's stages, so does the buffer it ends in. Nothing is computed: the two sides are the same
  composition of the same operations, and the stages are never opened beyond that composition.
-/

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen
open Cert.ReferenceIdeal.ReadCopy

variable {F : FTy → Type} [FloatOps F]

/-- Read a buffer after a list of plain operations: every operation's result at its own buffer is its function of its
    operands' contents, any other buffer is untouched; then the same inside the operand list of a concatenation, and
    the casts of a called function's typed references dropped. -/
macro "read_results" : tactic =>
  `(tactic| (after_results_simp
             (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))
             (try simp only [TRef.ofBuf, TRef.toBuf, cast_eq])))

variable (X : Valuation τ sig (Elt F))

/-! ## Before the first region: the edge list with self loops, and the normalisation -/

/-- The contents after the operations before the first region. -/
abbrev before1 : Valuation τ sig (Elt F) := StableHlo.after hostOps0_2 (StableHlo.after hostOps0_1 (StableHlo.after hostOps0 X))

/-- The source nodes of the edges followed by every node once (its self loop). -/
theorem before1_src : before1 X (Proc.devRef .tc main_v3) = val_main_v3 (X (Proc.devRef .tc main_arg1)) := by
  show StableHlo.after hostOps0_2 (StableHlo.after hostOps0_1 (StableHlo.after hostOps0 X)) (Proc.devRef .tc main_v3) = _
  read_results
  rfl

/-- The destination nodes of the edges followed by every node once. -/
theorem before1_dst : before1 X (Proc.devRef .tc main_v6) = val_main_v6 (X (Proc.devRef .tc main_arg1)) := by
  show StableHlo.after hostOps0_2 (StableHlo.after hostOps0_1 (StableHlo.after hostOps0 X)) (Proc.devRef .tc main_v6) = _
  read_results
  rfl

/-- The edge weights: the product of the two end nodes' inverse square-root degrees. -/
theorem before1_norm : before1 X (Proc.devRef .tc main_v29) = val_main_v29 (X (Proc.devRef .tc main_arg1)) := by
  show StableHlo.after hostOps0_2 (StableHlo.after hostOps0_1 (StableHlo.after hostOps0 X)) (Proc.devRef .tc main_v29) = _
  read_results
  rfl

/-- No plain operation before the first region writes an argument array. -/
theorem before1_arg0 : before1 X (Proc.devRef .tc main_arg0) = X (Proc.devRef .tc main_arg0) := by
  show StableHlo.after hostOps0_2 (StableHlo.after hostOps0_1 (StableHlo.after hostOps0 X)) (Proc.devRef .tc main_arg0) = _
  after_results_simp
theorem before1_arg2 : before1 X (Proc.devRef .tc main_arg2) = X (Proc.devRef .tc main_arg2) := by
  show StableHlo.after hostOps0_2 (StableHlo.after hostOps0_1 (StableHlo.after hostOps0 X)) (Proc.devRef .tc main_arg2) = _
  after_results_simp
theorem before1_arg3 : before1 X (Proc.devRef .tc main_arg3) = X (Proc.devRef .tc main_arg3) := by
  show StableHlo.after hostOps0_2 (StableHlo.after hostOps0_1 (StableHlo.after hostOps0 X)) (Proc.devRef .tc main_arg3) = _
  after_results_simp
theorem before1_arg4 : before1 X (Proc.devRef .tc main_arg4) = X (Proc.devRef .tc main_arg4) := by
  show StableHlo.after hostOps0_2 (StableHlo.after hostOps0_1 (StableHlo.after hostOps0 X)) (Proc.devRef .tc main_arg4) = _
  after_results_simp
theorem before1_arg5 : before1 X (Proc.devRef .tc main_arg5) = X (Proc.devRef .tc main_arg5) := by
  show StableHlo.after hostOps0_2 (StableHlo.after hostOps0_1 (StableHlo.after hostOps0 X)) (Proc.devRef .tc main_arg5) = _
  after_results_simp

/-! ## Between the first and the second region: the first layer's aggregation, bias and rectifier -/

/-- The contents after the operations between the first and the second region. -/
abbrev before2 : Valuation τ sig (Elt F) := StableHlo.after hostOps1_1 (StableHlo.after hostOps1 X)

/-- If the first product, the edge ends, the edge weights and the bias are the array program's, so are the hidden
    activations: gather the product's rows at the sources, scale by the weights, add up at the destinations, add the
    bias, clamp at zero from below. -/
theorem before2_hidden (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (hprod : X (Proc.devRef .tc main_v30) = val_main_v30 x0 x2)
    (hsrc : X (Proc.devRef .tc main_v3) = val_main_v3 x1)
    (hdst : X (Proc.devRef .tc main_v6) = val_main_v6 x1)
    (hnorm : X (Proc.devRef .tc main_v29) = val_main_v29 x1)
    (hbias : X (Proc.devRef .tc main_arg3) = x3) :
    before2 X (Proc.devRef .tc main_v47) = val_main_v47 x0 x1 x2 x3 := by
  show StableHlo.after hostOps1_1 (StableHlo.after hostOps1 X) (Proc.devRef .tc main_v47) = _
  read_results
  rw [hprod, hsrc, hdst, hnorm, hbias]
  rfl

theorem before2_src : before2 X (Proc.devRef .tc main_v3) = X (Proc.devRef .tc main_v3) := by
  show StableHlo.after hostOps1_1 (StableHlo.after hostOps1 X) (Proc.devRef .tc main_v3) = _
  after_results_simp
theorem before2_dst : before2 X (Proc.devRef .tc main_v6) = X (Proc.devRef .tc main_v6) := by
  show StableHlo.after hostOps1_1 (StableHlo.after hostOps1 X) (Proc.devRef .tc main_v6) = _
  after_results_simp
theorem before2_norm : before2 X (Proc.devRef .tc main_v29) = X (Proc.devRef .tc main_v29) := by
  show StableHlo.after hostOps1_1 (StableHlo.after hostOps1 X) (Proc.devRef .tc main_v29) = _
  after_results_simp
theorem before2_arg4 : before2 X (Proc.devRef .tc main_arg4) = X (Proc.devRef .tc main_arg4) := by
  show StableHlo.after hostOps1_1 (StableHlo.after hostOps1 X) (Proc.devRef .tc main_arg4) = _
  after_results_simp
theorem before2_arg5 : before2 X (Proc.devRef .tc main_arg5) = X (Proc.devRef .tc main_arg5) := by
  show StableHlo.after hostOps1_1 (StableHlo.after hostOps1 X) (Proc.devRef .tc main_arg5) = _
  after_results_simp

/-! ## Between the second and the third region: the second layer's aggregation and bias -/

/-- The contents after the operations between the second and the third region. -/
abbrev before3 : Valuation τ sig (Elt F) := StableHlo.after hostOps2 X

/-- If the second product, the edge ends, the edge weights and the bias are the array program's, so are the class
    scores: gather, scale, add up at the destinations, add the bias. -/
theorem before3_scores (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (x4 : (⟨S16x4, .f32⟩ : BufTy).Contents (Elt F)) (x5 : (⟨S4, .f32⟩ : BufTy).Contents (Elt F))
    (hprod : X (Proc.devRef .tc main_v48) = val_main_v48 x0 x1 x2 x3 x4)
    (hsrc : X (Proc.devRef .tc main_v3) = val_main_v3 x1)
    (hdst : X (Proc.devRef .tc main_v6) = val_main_v6 x1)
    (hnorm : X (Proc.devRef .tc main_v29) = val_main_v29 x1)
    (hbias : X (Proc.devRef .tc main_arg5) = x5) :
    before3 X (Proc.devRef .tc main_v64) = val_main_v64 x0 x1 x2 x3 x4 x5 := by
  show StableHlo.after hostOps2 X (Proc.devRef .tc main_v64) = _
  read_results
  rw [hprod, hsrc, hdst, hnorm, hbias]
  rfl

end Cert.KernelIdeal.Stretches

end
-- ==== Proof.Spec.lean ====
import Idealize.ShloMosaic.PureOps.Ideal.Laws
import Idealize.ShloMosaic.Lib.ValueIdx

/-!
  What the three kernel regions compute at the ideal values, as whole-array functions read index by index.

  * `matProd l r`: the matrix product of an [M, K] array and a [K, N] array: entry (p, q) is the sum over k of
    l(p, k) · r(k, q).
  * `rowMax a p`: the largest entry of row p of an [M, N] array, taken from −∞ (the f32 pattern 0xFF800000).
  * `logSoftmax a`: entry (p, q) is (a(p, q) − max_p) − log (Σ_k exp (a(p, k) − max_p)), max_p the row's largest entry.

  The graph network's two linear layers are matrix products and its last step is a row-wise log-softmax; both the
  pipelined kernels and the plain array program compute these functions, which is what the other modules show.
-/

open scoped BigOperators

noncomputable section

namespace Cert.Spec

open Idealize.ShloMosaic Idealize.ShloMosaic.ValueIdx

/-- The matrix product, entry by entry. -/
def matProd {M K N : Nat} (l : (⟨2, ![M, K]⟩ : Shape).Idx → Ideal .f32) (r : (⟨2, ![K, N]⟩ : Shape).Idx → Ideal .f32) :
    (⟨2, ![M, N]⟩ : Shape).Idx → Ideal .f32 :=
  fun i => ∑ k : Fin K, l (ix2 (i 0) k) * r (ix2 k (i 1))

theorem matProd_apply {M K N : Nat} (l : (⟨2, ![M, K]⟩ : Shape).Idx → Ideal .f32) (r : (⟨2, ![K, N]⟩ : Shape).Idx → Ideal .f32)
    (p : Fin M) (q : Fin N) : matProd l r (ix2 p q) = ∑ k : Fin K, l (ix2 p k) * r (ix2 k q) := rfl

/-- The largest entry of row `p`, from −∞. -/
def rowMax {M N : Nat} (a : (⟨2, ![M, N]⟩ : Shape).Idx → Ideal .f32) (p : Fin M) : Ideal .f32 :=
  (Finset.univ : Finset (Fin N)).fold max (Ideal.ofBits .f32 0xFF800000#32) fun k => a (ix2 p k)

/-- The row-wise log-softmax, entry by entry. -/
def logSoftmax {M N : Nat} (a : (⟨2, ![M, N]⟩ : Shape).Idx → Ideal .f32) : (⟨2, ![M, N]⟩ : Shape).Idx → Ideal .f32 :=
  fun i => a i - rowMax a (i 0) - Ideal.log (∑ k : Fin N, Ideal.exp (a (ix2 (i 0) k) - rowMax a (i 0)))

theorem logSoftmax_apply {M N : Nat} (a : (⟨2, ![M, N]⟩ : Shape).Idx → Ideal .f32) (p : Fin M) (q : Fin N) :
    logSoftmax a (ix2 p q) = a (ix2 p q) - rowMax a p - Ideal.log (∑ k : Fin N, Ideal.exp (a (ix2 p k) - rowMax a p)) := rfl

/-- Taking the maximum with −∞ once more changes nothing: the fold already starts there. -/
theorem max_bot_rowMax {M N : Nat} (a : (⟨2, ![M, N]⟩ : Shape).Idx → Ideal .f32) (p : Fin M) :
    max (Ideal.ofBits .f32 0xFF800000#32) (rowMax a p) = rowMax a p :=
  max_eq_right ((Finset.le_fold_max _).2 (Or.inl le_rfl))

end Cert.Spec

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.FirstProduct.lean ====
import proofs.«144812_j40638980555308_1_alg».proof.Proof.Gen.KernelIdeal.Frame
import proofs.«144812_j40638980555308_1_alg».proof.Proof.Spec
import proofs.«144812_j40638980555308_1_alg».proof.Proof.LibPlainDot
import Idealize.ShloMosaic.Lib.Pipeline.Value
import Idealize.ShloMosaic.Lib.ValueIdx

/-!
  The first pipelined region: the node features [100000, 512] times the first weight matrix [512, 16], fifty row
  blocks of 2000 rows. At the ideal values the change to the narrower float format is the identity and the matrix unit
  accumulates into zero, so the block a grid point writes back is the matrix product of its 2000 rows with the whole
  weight matrix; the fifty blocks tile the result, so after the region the result array is the matrix product of the
  two arrays as the region found them.
-/

set_option maxRecDepth 16384

open scoped BigOperators

noncomputable section

namespace Cert.KernelIdeal.FirstProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The feature block and the weight block a grid point works on, and the two arrays they are cut from. -/
abbrev xblk (c : Dev nD) (t : Fin cfg0.N) : FVec Ideal S2000x512 .f32 := iblk0 V c 0 t
abbrev wblk (c : Dev nD) (t : Fin cfg0.N) : FVec Ideal S512x16 .f32 := iblk0 V c 1 t
abbrev xarr (c : Dev nD) : FVec Ideal S100000x512 .f32 := V c main_arg0
abbrev warr (c : Dev nD) : FVec Ideal S512x16 .f32 := V c main_arg2

/-- The value the body stores, at entry (p, q) of the block: the sum over k of x(p, k) · w(k, q). -/
theorem stored_apply (x : FVec Ideal S2000x512 .f32) (w : FVec Ideal S512x16 .f32) (p : Fin 2000) (q : Fin 16) :
    k0_pay1 (F := Ideal) x w (ix2 p q) = ∑ k : Fin 512, x (ix2 p k) * w (ix2 k q) := by
  unfold k0_pay1
  exact Cert.Lib.PlainDot.matmul_zero_apply dot_S2000x512_S512x16_S2000x16_1_0_0_1_n_n rfl rfl rfl rfl rfl rfl none
    (truncf .bf16 x bitsLt_bf16_f32) (truncf .bf16 w bitsLt_bf16_f32) p q

/-- Where the three windows' blocks sit at grid point t: the feature block and the result block at block row t, the
    weight block always the whole matrix. -/
theorem block_positions : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, k) of the feature block at point t is entry (2000·t + p, k) of the feature array. -/
theorem xblk_apply (c : Dev nD) (t : Fin cfg0.N) (p : Fin 2000) (k : Fin 512) (r : Fin 100000)
    (hr : r.val = t.val * 2000 + p.val) : xblk V c t (ix2 p k) = xarr V c (ix2 r k) := by
  show V c main_arg0 (((cfg0.win 0).blk t).view.emb (ix2 p k)) = V c main_arg0 (ix2 r k)
  refine congrArg (V c main_arg0) ?_
  obtain ⟨e0, e1, e2, e3, e4, e5⟩ := block_positions t
  funext a; apply Fin.ext
  match a with
  | ⟨0, _⟩ => show win0_0.index t (0 : Fin 2) * 2000 + 1 * p.val = r.val; omega
  | ⟨1, _⟩ => show win0_0.index t (1 : Fin 2) * 512 + 1 * k.val = k.val; omega

/-- Entry (k, q) of the weight block at any point is entry (k, q) of the weight array. -/
theorem wblk_apply (c : Dev nD) (t : Fin cfg0.N) (k : Fin 512) (q : Fin 16) (s : Fin 16)
    (hs : s.val = q.val) : wblk V c t (ix2 k q) = warr V c (ix2 k s) := by
  show V c main_arg2 (((cfg0.win 1).blk t).view.emb (ix2 k q)) = V c main_arg2 (ix2 k s)
  refine congrArg (V c main_arg2) ?_
  obtain ⟨e0, e1, e2, e3, e4, e5⟩ := block_positions t
  funext a; apply Fin.ext
  match a with
  | ⟨0, _⟩ => show win0_1.index t (0 : Fin 2) * 512 + 1 * k.val = k.val; omega
  | ⟨1, _⟩ => show win0_1.index t (1 : Fin 2) * 16 + 1 * q.val = s.val; omega

/-- What grid point t writes back is block t of the matrix product of the two arrays. -/
theorem flushed_eq (c : Dev nD) (t : Fin cfg0.N) :
    (dat0 V c).flushed 2 t
      = ((cfg0.win 2).blk t).view.read (Elt Ideal) (Cert.Spec.matProd (xarr V c) (warr V c)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x16) origin]
  funext j
  obtain ⟨p, q, rfl⟩ : ∃ (p : Fin 2000) (q : Fin 16), j = ix2 p q := ⟨j 0, j 1, eq_ix2 j⟩
  obtain ⟨e0, e1, e2, e3, e4, e5⟩ := block_positions t
  have h0 : ((((cfg0.win 2).blk t).view.emb (ix2 p q)) 0).val = t.val * 2000 + p.val := by
    show win0_2.index t (0 : Fin 2) * 2000 + 1 * p.val = _; omega
  have h1 : ((((cfg0.win 2).blk t).view.emb (ix2 p q)) 1).val = q.val := by
    show win0_2.index t (1 : Fin 2) * 16 + 1 * q.val = _; omega
  show k0_pay1 (F := Ideal) (xblk V c t) (wblk V c t) (ix2 p q)
    = ∑ k : Fin 512, xarr V c (ix2 ((((cfg0.win 2).blk t).view.emb (ix2 p q)) 0) k)
        * warr V c (ix2 k ((((cfg0.win 2).blk t).view.emb (ix2 p q)) 1))
  refine (stored_apply (xblk V c t) (wblk V c t) p q).trans ?_
  refine Finset.sum_congr rfl fun k _ => ?_
  rw [xblk_apply V c t p k _ h0, wblk_apply V c t k q _ h1]

/-- An index of the result array is in point t's block iff each coordinate is in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Every entry of the result array lies in the block of the point its row names: row r in block r / 2000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 50 := N_0
  have ht : (i 0).val / 2000 < grid0.N := by rw [hN]; omega
  obtain ⟨e0, e1, e2, e3, e4, e5⟩ := block_positions ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    have : win0_2.index ⟨(i 0).val / 2000, ht⟩ (0 : Fin 2) = (i 0).val / 2000 := e4
    omega
  | ⟨1, _⟩ =>
    show win0_2.index ⟨(i 0).val / 2000, ht⟩ (1 : Fin 2) * 16 ≤ (i 1).val
      ∧ (i 1).val < win0_2.index ⟨(i 0).val / 2000, ht⟩ (1 : Fin 2) * 16 + 16
    omega

/-- After the region the result array is the matrix product of the feature array and the weight array as the region
    found them. -/
theorem arr_eq (c : Dev nD) :
    (dat0 V c).arrAt 2 cfg0.N = Cert.Spec.matProd (xarr V c) (warr V c) :=
  (dat0 V c).arrAt_eq_of_cover 2 _ (fun t _ => flushed_eq V c t) covered

end Cert.KernelIdeal.FirstProduct

end
-- ==== Proof.SecondProduct.lean ====
import proofs.«144812_j40638980555308_1_alg».proof.Proof.Gen.KernelIdeal.Frame
import proofs.«144812_j40638980555308_1_alg».proof.Proof.Spec
import proofs.«144812_j40638980555308_1_alg».proof.Proof.LibPlainDot
import Idealize.ShloMosaic.Lib.Pipeline.Value
import Idealize.ShloMosaic.Lib.ValueIdx

/-!
  The second pipelined region: the hidden activations [100000, 16] times the second weight matrix [16, 4], four row
  blocks of 25000 rows. The body reshapes its block to the shape it already has, changes the float format (the identity
  at the ideal values) and multiplies into a zero accumulator: each grid point writes back the matrix product of its
  25000 rows with the whole weight matrix, and the four blocks tile the result array.
-/

set_option maxRecDepth 16384

open scoped BigOperators

noncomputable section

namespace Cert.KernelIdeal.SecondProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The activation block and the weight block a grid point works on, and the two arrays they are cut from. -/
abbrev hblk (c : Dev nD) (t : Fin cfg1.N) : FVec Ideal S25000x16 .f32 := iblk1 V c 0 t
abbrev wblk (c : Dev nD) (t : Fin cfg1.N) : FVec Ideal S16x4 .f32 := iblk1 V c 1 t
abbrev harr (c : Dev nD) : FVec Ideal S100000x16 .f32 := V c main_v47
abbrev warr (c : Dev nD) : FVec Ideal S16x4 .f32 := V c main_arg4

/-- The value the body stores, at entry (p, q) of the block: the sum over the sixteen hidden units k of
    h(p, k) · w(k, q); the reshape to the same shape reads every entry where it was. -/
theorem stored_apply (h : FVec Ideal S25000x16 .f32) (w : FVec Ideal S16x4 .f32) (p : Fin 25000) (q : Fin 4) :
    k1_pay1 (F := Ideal) h w (ix2 p q) = ∑ k : Fin 16, h (ix2 p k) * w (ix2 k q) := by
  unfold k1_pay1
  simp only [shapeCast_self]
  exact Cert.Lib.PlainDot.matmul_zero_apply dot_S25000x16_S16x4_S25000x4_1_0_0_1_n_n rfl rfl rfl rfl rfl rfl none
    (truncf .bf16 h bitsLt_bf16_f32) (truncf .bf16 w bitsLt_bf16_f32) p q

/-- Where the three windows' blocks sit at grid point t: the activation block and the result block at block row t,
    the weight block always the whole matrix. -/
theorem block_positions : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Entry (p, k) of the activation block at point t is entry (25000·t + p, k) of the activation array. -/
theorem hblk_apply (c : Dev nD) (t : Fin cfg1.N) (p : Fin 25000) (k : Fin 16) (r : Fin 100000)
    (hr : r.val = t.val * 25000 + p.val) : hblk V c t (ix2 p k) = harr V c (ix2 r k) := by
  show V c main_v47 (((cfg1.win 0).blk t).view.emb (ix2 p k)) = V c main_v47 (ix2 r k)
  refine congrArg (V c main_v47) ?_
  obtain ⟨e0, e1, e2, e3, e4, e5⟩ := block_positions t
  funext a; apply Fin.ext
  match a with
  | ⟨0, _⟩ => show win1_0.index t (0 : Fin 2) * 25000 + 1 * p.val = r.val; omega
  | ⟨1, _⟩ => show win1_0.index t (1 : Fin 2) * 16 + 1 * k.val = k.val; omega

/-- Entry (k, q) of the weight block at any point is entry (k, q) of the weight array. -/
theorem wblk_apply (c : Dev nD) (t : Fin cfg1.N) (k : Fin 16) (q : Fin 4) (s : Fin 4)
    (hs : s.val = q.val) : wblk V c t (ix2 k q) = warr V c (ix2 k s) := by
  show V c main_arg4 (((cfg1.win 1).blk t).view.emb (ix2 k q)) = V c main_arg4 (ix2 k s)
  refine congrArg (V c main_arg4) ?_
  obtain ⟨e0, e1, e2, e3, e4, e5⟩ := block_positions t
  funext a; apply Fin.ext
  match a with
  | ⟨0, _⟩ => show win1_1.index t (0 : Fin 2) * 16 + 1 * k.val = k.val; omega
  | ⟨1, _⟩ => show win1_1.index t (1 : Fin 2) * 4 + 1 * q.val = s.val; omega

/-- What grid point t writes back is block t of the matrix product of the two arrays. -/
theorem flushed_eq (c : Dev nD) (t : Fin cfg1.N) :
    (dat1 V c).flushed 2 t
      = ((cfg1.win 2).blk t).view.read (Elt Ideal) (Cert.Spec.matProd (harr V c) (warr V c)) := by
  show (cfg1.win 2).cut (grid1.coords t) ((dat1 V c).after 2 t) = _
  rw [after1_2]
  unfold out1_2
  rw [View.canon_unit_zero origin]
  simp only [View.ld_unit_zero (S := S25000x16) origin, View.ld_unit_zero (S := S16x4) origin]
  funext j
  obtain ⟨p, q, rfl⟩ : ∃ (p : Fin 25000) (q : Fin 4), j = ix2 p q := ⟨j 0, j 1, eq_ix2 j⟩
  obtain ⟨e0, e1, e2, e3, e4, e5⟩ := block_positions t
  have h0 : ((((cfg1.win 2).blk t).view.emb (ix2 p q)) 0).val = t.val * 25000 + p.val := by
    show win1_2.index t (0 : Fin 2) * 25000 + 1 * p.val = _; omega
  have h1 : ((((cfg1.win 2).blk t).view.emb (ix2 p q)) 1).val = q.val := by
    show win1_2.index t (1 : Fin 2) * 4 + 1 * q.val = _; omega
  show k1_pay1 (F := Ideal) (hblk V c t) (wblk V c t) (ix2 p q)
    = ∑ k : Fin 16, harr V c (ix2 ((((cfg1.win 2).blk t).view.emb (ix2 p q)) 0) k)
        * warr V c (ix2 k ((((cfg1.win 2).blk t).view.emb (ix2 p q)) 1))
  refine (stored_apply (hblk V c t) (wblk V c t) p q).trans ?_
  refine Finset.sum_congr rfl fun k _ => ?_
  rw [hblk_apply V c t p k _ h0, wblk_apply V c t k q _ h1]

/-- An index of the result array is in point t's block iff each coordinate is in the block's range on its axis. -/
theorem mem_block (t : Fin cfg1.N) (i : S100000x4.Idx) :
    i ∈ ((cfg1.win 2).blk t).view.set ↔ ∀ a : Fin 2, win1_2.index t a * S25000x4.size a ≤ (i a).val
      ∧ (i a).val < win1_2.index t a * S25000x4.size a + S25000x4.size a := by
  show i ∈ ((View.whole main_v48).slice (win1_2.rect t)).set ↔ _
  rw [View.set_slice_whole, Rect.mem_set_unit]
  exact Iff.rfl

/-- Every entry of the result array lies in the block of the point its row names: row r in block r / 25000. -/
theorem covered (i : S100000x4.Idx) :
    ∃ t : Fin cfg1.N, (cfg1.win 2).flush t = true ∧ i ∈ ((cfg1.win 2).blk t).view.set := by
  have hi0 : (i 0).val < 100000 := (i 0).isLt
  have hi1 : (i 1).val < 4 := (i 1).isLt
  have hN : grid1.N = 4 := N_1
  have ht : (i 0).val / 25000 < grid1.N := by rw [hN]; omega
  obtain ⟨e0, e1, e2, e3, e4, e5⟩ := block_positions ⟨(i 0).val / 25000, ht⟩
  refine ⟨⟨(i 0).val / 25000, ht⟩, flush1_2 _, ?_⟩
  rw [mem_block]
  intro a
  match a with
  | ⟨0, _⟩ =>
    show win1_2.index ⟨(i 0).val / 25000, ht⟩ (0 : Fin 2) * 25000 ≤ (i 0).val
      ∧ (i 0).val < win1_2.index ⟨(i 0).val / 25000, ht⟩ (0 : Fin 2) * 25000 + 25000
    have : win1_2.index ⟨(i 0).val / 25000, ht⟩ (0 : Fin 2) = (i 0).val / 25000 := e4
    omega
  | ⟨1, _⟩ =>
    show win1_2.index ⟨(i 0).val / 25000, ht⟩ (1 : Fin 2) * 4 ≤ (i 1).val
      ∧ (i 1).val < win1_2.index ⟨(i 0).val / 25000, ht⟩ (1 : Fin 2) * 4 + 4
    omega

/-- After the region the result array is the matrix product of the activation array and the weight array as the
    region found them. -/
theorem arr_eq (c : Dev nD) :
    (dat1 V c).arrAt 2 cfg1.N = Cert.Spec.matProd (harr V c) (warr V c) :=
  (dat1 V c).arrAt_eq_of_cover 2 _ (fun t _ => flushed_eq V c t) covered

end Cert.KernelIdeal.SecondProduct

end
-- ==== Proof.LastStep.lean ====
import proofs.«144812_j40638980555308_1_alg».proof.Proof.Gen.KernelIdeal.Frame
import proofs.«144812_j40638980555308_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The last pipelined region: the row-wise log-softmax of the [100000, 4] array of scores, four row blocks of 25000
  rows. Entry (p, q) of a log-softmax depends on row p alone: the row's largest entry m (from −∞), and the sum over the
  row's four entries of exp (entry − m). A block holds whole rows (all four columns), so what a grid point computes
  from its block at entry (p, q) is the log-softmax of the whole array at entry (25000·t + p, q); the four blocks tile
  the result, so after the region the result array is the log-softmax of the score array as the region found it.
-/

set_option maxRecDepth 16384

open scoped BigOperators

noncomputable section

namespace Cert.KernelIdeal.LastStep

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's operations on a block, read at an entry -/

/-- The maximum along the columns, at row p: the largest of the row's four entries, from −∞. The reduction is the fold
    of max over the column coordinate k of the block at the index (p, k). -/
theorem rowmax_apply (x : FVec Ideal S25000x4 .f32) (h : S25000x4.Reduces [1] S25000) (hφ : FKind.Formats .f32)
    (hacc : (0xFF800000#32 : BitVec 32) = FKind.maximumf.neutral .f32 hφ) (p : Fin 25000) :
    multiReduction (F := Ideal) .maximumf [1] S25000 x 0xFF800000#32 h hφ hacc (ix1 p) = Cert.Spec.rowMax x p := by
  refine (Ideal.multiReduction_maximumf_single x _ h hφ hacc (ix1 p)).trans ?_
  show (Finset.univ : Finset (Fin 4)).fold max (Ideal.ofBits .f32 0xFF800000#32) (x ∘ h.lift (ix1 p)) = _
  unfold Cert.Spec.rowMax
  congr 1
  funext k
  show x (h.lift (ix1 p) k) = x (ix2 p k)
  refine congrArg x ?_
  funext a; apply Fin.ext
  match a with
  | ⟨0, _⟩ => rfl
  | ⟨1, _⟩ => rfl

/-- The sum along the columns, at row p: the sum of the row's four entries. -/
theorem rowsum_apply (x : FVec Ideal S25000x4 .f32) (h : S25000x4.Reduces [1] S25000) (hφ : FKind.Formats .f32)
    (hacc : (0x00000000#32 : BitVec 32) = FKind.add.neutral .f32 hφ) (p : Fin 25000) :
    multiReduction (F := Ideal) .add [1] S25000 x 0x00000000#32 h hφ hacc (ix1 p) = ∑ k : Fin 4, x (ix2 p k) := by
  refine (Ideal.multiReduction_add_single x _ h hφ hacc (ix1 p)).trans ?_
  show ∑ k : Fin 4, x (h.lift (ix1 p) k) = _
  refine Finset.sum_congr rfl fun k _ => congrArg x ?_
  funext a; apply Fin.ext
  match a with
  | ⟨0, _⟩ => rfl
  | ⟨1, _⟩ => rfl

/-- A vector of 25000 row values seen as a [25000, 1] column reads, at (p, 0), the value of row p: both have row-major
    position p. -/
theorem column_apply {α : Type} (v : S25000.Idx → α) (h : S25000.ShapeCasts S25000x1) (p : Fin 25000) (u : Fin 1) :
    shapeCast S25000x1 v h (ix2 p u) = v (ix1 p) :=
  shapeCast_apply v h _ _ (by
    have hu : u.val = 0 := by omega
    rw [Shape.rowMajor_val_two, Shape.rowMajor_val_one]
    show p.val = p.val * 1 + u.val
    omega)

/-- The column spread over the four columns reads, at (p, q), the column's value in row p. -/
theorem spread_apply {α : Type} (v : S25000x1.Idx → α) (h : S25000x1.Broadcasts S25000x4) (p : Fin 25000) (q : Fin 4) :
    broadcastTo S25000x4 v h (ix2 p q) = v (ix2 p (0 : Fin 1)) :=
  broadcastTo_apply v h _ _ (fun a => by
    match a with
    | ⟨0, _⟩ => rfl
    | ⟨1, _⟩ => rfl)

/-- The exponential and the logarithm of a vector, at an entry. -/
theorem exp_at {s : Shape} (a : FVec Ideal s .f32) (i : s.Idx) : Idealize.ShloMosaic.exp a i = Ideal.exp (a i) := rfl
theorem log_at {s : Shape} (a : FVec Ideal s .f32) (i : s.Idx) : Idealize.ShloMosaic.log a i = Ideal.log (a i) := rfl

/-- Everything the body does after the row maxima are known, with the vector of row maxima m a variable whose value
    in row p is r: the entry less r, less the logarithm of the sum over the row of exp (entry − r). -/
theorem shifted_apply (x : FVec Ideal S25000x4 .f32) (m : FVec Ideal S25000 .f32) (r : Ideal .f32)
    (h : S25000x4.Reduces [1] S25000) (hφ : FKind.Formats .f32)
    (hacc : (0x00000000#32 : BitVec 32) = FKind.add.neutral .f32 hφ)
    (hc : S25000.ShapeCasts S25000x1) (hb : S25000x1.Broadcasts S25000x4) (p : Fin 25000) (q : Fin 4)
    (hm : m (ix1 p) = r) :
    subf (subf x (broadcastTo S25000x4 (shapeCast S25000x1 m hc) hb))
        (broadcastTo S25000x4 (Idealize.ShloMosaic.log (shapeCast S25000x1
          (multiReduction (F := Ideal) .add [1] S25000
            (Idealize.ShloMosaic.exp (subf x (broadcastTo S25000x4 (shapeCast S25000x1 m hc) hb)))
            0x00000000#32 h hφ hacc) hc)) hb)
        (ix2 p q)
      = x (ix2 p q) - r - Ideal.log (∑ k : Fin 4, Ideal.exp (x (ix2 p k) - r)) := by
  simp only [subf_apply, log_at, spread_apply, column_apply, hm]
  rw [rowsum_apply]
  simp only [subf_apply, exp_at, spread_apply, column_apply, hm]

/-- The value the body stores, at entry (p, q) of the block: the log-softmax of the block there. The cast to the
    block's own shape is the identity; the row maxima are the specification's; the rest is `shifted_apply`. -/
theorem stored_apply (x : FVec Ideal S25000x4 .f32) (p : Fin 25000) (q : Fin 4) :
    k2_pay1 (F := Ideal) x (ix2 p q) = Cert.Spec.logSoftmax x (ix2 p q) := by
  unfold k2_pay1
  rw [Cert.Spec.logSoftmax_apply]
  simp only [shapeCast_self]
  exact shifted_apply x _ (Cert.Spec.rowMax x p) _ _ _ _ _ p q (rowmax_apply x _ _ _ p)

/-- An entry of a log-softmax is a function of its row: two arrays with the same number of columns that agree on a
    row (row p of one, row p' of the other) have the same log-softmax along that row. -/
theorem logSoftmax_row_congr {M M' N : Nat} (a : (⟨2, ![M, N]⟩ : Shape).Idx → Ideal .f32)
    (b : (⟨2, ![M', N]⟩ : Shape).Idx → Ideal .f32) (p : Fin M) (p' : Fin M') (q : Fin N)
    (hab : ∀ k : Fin N, a (ix2 p k) = b (ix2 p' k)) :
    Cert.Spec.logSoftmax a (ix2 p q) = Cert.Spec.logSoftmax b (ix2 p' q) := by
  have hmax : Cert.Spec.rowMax a p = Cert.Spec.rowMax b p' := by
    unfold Cert.Spec.rowMax
    exact congrArg (fun f => (Finset.univ : Finset (Fin N)).fold max (Ideal.ofBits .f32 0xFF800000#32) f) (funext hab)
  rw [Cert.Spec.logSoftmax_apply, Cert.Spec.logSoftmax_apply, hmax, hab q]
  exact congrArg _ (congrArg Ideal.log (Finset.sum_congr rfl fun k _ => by rw [hab k]))

/-! ## The region -/

variable (V : (c : Dev nD) → (b : Ref sig .tc) → Buf (Elt Ideal) ((c : Thread nD τ).loc b))

theorem origin : (![0, 0] : Fin 2 → Nat) = fun _ => 0 := funext fun a => by fin_cases a <;> rfl

/-- The block of scores a grid point works on, and the array it is cut from. -/
abbrev ablk (c : Dev nD) (t : Fin cfg2.N) : FVec Ideal S25000x4 .f32 := iblk2 V c 0 t
abbrev aarr (c : Dev nD) : FVec Ideal S100000x4 .f32 := V c main_v64

/-- Where the two windows' blocks sit at grid point t: both at block row t, all four columns. -/
theorem block_positions : ∀ t : Fin cfg2.N, win2_0.index t (0 : Fin 2) = t.val
    ∧ win2_0.index t (1 : Fin 2) = 0
    ∧ win2_1.index t (0 : Fin 2) = t.val
    ∧ win2_1.index t (1 : Fin 2) = 0 :=
  (by decide +kernel : ∀ t : Fin grid2.N, _)

/-- Entry (p, k) of the score block at point t is entry (25000·t + p, k) of the score array. -/
theorem ablk_apply (c : Dev nD) (t : Fin cfg2.N) (p : Fin 25000) (k : Fin 4) (r : Fin 100000)
    (hr : r.val = t.val * 25000 + p.val) : ablk V c t (ix2 p k) = aarr V c (ix2 r k) := by
  show V c main_v64 (((cfg2.win 0).blk t).view.emb (ix2 p k)) = V c main_v64 (ix2 r k)
  refine congrArg (V c main_v64) ?_
  obtain ⟨e0, e1, e2, e3⟩ := block_positions t
  funext a; apply Fin.ext
  match a with
  | ⟨0, _⟩ => show win2_0.index t (0 : Fin 2) * 25000 + 1 * p.val = r.val; omega
  | ⟨1, _⟩ => show win2_0.index t (1 : Fin 2) * 4 + 1 * k.val = k.val; omega

/-- What grid point t writes back is block t of the log-softmax of the score array: entry (p, q) of the stored block
    is the log-softmax of the block's row p, which is row 25000·t + p of the array, all four columns of it. -/
theorem flushed_eq (c : Dev nD) (t : Fin cfg2.N) :
    (dat2 V c).flushed 1 t
      = ((cfg2.win 1).blk t).view.read (Elt Ideal) (Cert.Spec.logSoftmax (aarr V c)) := by
  show (cfg2.win 1).cut (grid2.coords t) ((dat2 V c).after 1 t) = _
  rw [after2_1]
  unfold out2_1
  rw [View.canon_unit_zero origin]
  simp only [View.ld_unit_zero (S := S25000x4) origin]
  funext j
  obtain ⟨p, q, rfl⟩ : ∃ (p : Fin 25000) (q : Fin 4), j = ix2 p q := ⟨j 0, j 1, eq_ix2 j⟩
  obtain ⟨e0, e1, e2, e3⟩ := block_positions t
  have h0 : ((((cfg2.win 1).blk t).view.emb (ix2 p q)) 0).val = t.val * 25000 + p.val := by
    show win2_1.index t (0 : Fin 2) * 25000 + 1 * p.val = _; omega
  have h1 : ((((cfg2.win 1).blk t).view.emb (ix2 p q)) 1).val = q.val := by
    show win2_1.index t (1 : Fin 2) * 4 + 1 * q.val = _; omega
  have hj : ((cfg2.win 1).blk t).view.emb (ix2 p q) = ix2 ((((cfg2.win 1).blk t).view.emb (ix2 p q)) 0) q :=
    (eq_ix2 _).trans (congrArg (ix2 _) (Fin.ext h1))
  show k2_pay1 (F := Ideal) (ablk V c t) (ix2 p q)
    = Cert.Spec.logSoftmax (aarr V c) (((cfg2.win 1).blk t).view.emb (ix2 p q))
  refine (stored_apply (ablk V c t) p q).trans ?_
  refine (logSoftmax_row_congr (ablk V c t) (aarr V c) p _ q fun k => ablk_apply V c t p k _ h0).trans ?_
  exact congrArg (Cert.Spec.logSoftmax (aarr V c)) hj.symm

/-- An index of the result array is in point t's block iff each coordinate is in the block's range on its axis. -/
theorem mem_block (t : Fin cfg2.N) (i : S100000x4.Idx) :
    i ∈ ((cfg2.win 1).blk t).view.set ↔ ∀ a : Fin 2, win2_1.index t a * S25000x4.size a ≤ (i a).val
      ∧ (i a).val < win2_1.index t a * S25000x4.size a + S25000x4.size a := by
  show i ∈ ((View.whole main_v65).slice (win2_1.rect t)).set ↔ _
  rw [View.set_slice_whole, Rect.mem_set_unit]
  exact Iff.rfl

/-- Every entry of the result array lies in the block of the point its row names: row r in block r / 25000. -/
theorem covered (i : S100000x4.Idx) :
    ∃ t : Fin cfg2.N, (cfg2.win 1).flush t = true ∧ i ∈ ((cfg2.win 1).blk t).view.set := by
  have hi0 : (i 0).val < 100000 := (i 0).isLt
  have hi1 : (i 1).val < 4 := (i 1).isLt
  have hN : grid2.N = 4 := N_2
  have ht : (i 0).val / 25000 < grid2.N := by rw [hN]; omega
  obtain ⟨e0, e1, e2, e3⟩ := block_positions ⟨(i 0).val / 25000, ht⟩
  refine ⟨⟨(i 0).val / 25000, ht⟩, flush2_1 _, ?_⟩
  rw [mem_block]
  intro a
  match a with
  | ⟨0, _⟩ =>
    show win2_1.index ⟨(i 0).val / 25000, ht⟩ (0 : Fin 2) * 25000 ≤ (i 0).val
      ∧ (i 0).val < win2_1.index ⟨(i 0).val / 25000, ht⟩ (0 : Fin 2) * 25000 + 25000
    have : win2_1.index ⟨(i 0).val / 25000, ht⟩ (0 : Fin 2) = (i 0).val / 25000 := e2
    omega
  | ⟨1, _⟩ =>
    show win2_1.index ⟨(i 0).val / 25000, ht⟩ (1 : Fin 2) * 4 ≤ (i 1).val
      ∧ (i 1).val < win2_1.index ⟨(i 0).val / 25000, ht⟩ (1 : Fin 2) * 4 + 4
    omega

/-- After the region the result array is the row-wise log-softmax of the score array as the region found it. -/
theorem arr_eq (c : Dev nD) :
    (dat2 V c).arrAt 1 cfg2.N = Cert.Spec.logSoftmax (aarr V c) :=
  (dat2 V c).arrAt_eq_of_cover 1 _ (fun t _ => flushed_eq V c t) covered

end Cert.KernelIdeal.LastStep

end
-- ==== Proof.RefLastStep.lean ====
import proofs.«144812_j40638980555308_1_alg».proof.Proof.RefRead
import proofs.«144812_j40638980555308_1_alg».proof.Proof.Spec
import Idealize.ShloMosaic.PureOps.Ideal.Laws
import Idealize.ShloMosaic.Lib.ValueIdx

/-!
  The plain array program's last step, read entry by entry: its log-softmax of the [100000, 4] array of scores is the
  specification's. It takes each row's largest entry by a fold of max from −∞, takes the maximum of that with −∞ once
  more (which changes nothing: the fold already starts there), subtracts it from the row, sums the exponentials of the
  row's four differences from the constant 0, and subtracts the logarithm of that sum. Every broadcast in between
  reads, at (p, q), the value of row p.
-/

set_option maxRecDepth 16384

open scoped BigOperators

noncomputable section

namespace Cert.ReferenceIdeal.LastStep

open Idealize.ShloMosaic Idealize.ShloMosaic.ValueIdx
open Cert.ReferenceIdeal Cert.ReferenceIdeal.Gen Cert.ReferenceIdeal.ReadCopy

/-- The host's reduce with a maximum body along the columns of ANY [100000, 4] array a, from the constant −∞, at row p:
    the fold of max over the row's four entries started from −∞, which is the row's largest entry as the specification
    takes it. Stated for a variable array, so that nothing about the array that goes in is ever looked at. -/
theorem reduce_max_row (a : (⟨S100000x4, .f32⟩ : BufTy).Contents (Elt Ideal)) (p : Fin 100000) :
    Host.reduce FloatOps.maximumf a (val_main_call2_cst (F := Ideal)) reducesTo_S100000x4_S100000_d1 h_S_ (ix1 p)
      = Cert.Spec.rowMax a p := by
  have hR : S100000x4.Reduces [1] S100000 := by decide
  have hstep := Host.reduce_eq_fold_single (FloatOps.maximumf (F := Ideal) (φ := .f32)) a (val_main_call2_cst (F := Ideal)) reducesTo_S100000x4_S100000_d1 hR h_S_ (ix1 p)
  refine hstep.trans ?_
  show (Finset.univ : Finset (Fin 4)).fold max (Ideal.ofBits .f32 0xFF800000#32) (a ∘ _) = _
  unfold Cert.Spec.rowMax
  refine congrArg (fun f => (Finset.univ : Finset (Fin 4)).fold max (Ideal.ofBits .f32 0xFF800000#32) f)
    (funext fun k => ?_)
  show a (hR.lift (ix1 p) k) = a (ix2 p k)
  refine congrArg a ?_
  funext b; apply Fin.ext
  match b with
  | ⟨0, _⟩ => rfl
  | ⟨1, _⟩ => rfl

/-- The reference's first step at row p is that reduce of the array going in. -/
theorem rowmax_apply (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal)) (p : Fin 100000) :
    val_main_call2_v0 (F := Ideal) x0 x1 x2 x3 x4 x5 (ix1 p)
      = Cert.Spec.rowMax (val_main_v64 (F := Ideal) x0 x1 x2 x3 x4 x5) p := by
  unfold val_main_call2_v0
  exact reduce_max_row _ p

open Cert.ReferenceIdeal Cert.ReferenceIdeal.ReadCopy in
/-- The array the reference returns from its log-softmax call is the specification's log-softmax of the array going
    in. At entry (p, q): the subtracted maximum is row p's (the extra maximum with −∞ dropped), the sum runs over row
    p's four entries from 0, and the two subtractions are the specification's. -/
theorem val_main_v65_eq_logSoftmax (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x4, .f32⟩ : BufTy).Contents (Elt Ideal)) (x5 : (⟨S4, .f32⟩ : BufTy).Contents (Elt Ideal)) :
    val_main_v65 (F := Ideal) x0 x1 x2 x3 x4 x5 = Cert.Spec.logSoftmax (val_main_v64 (F := Ideal) x0 x1 x2 x3 x4 x5) := by
  funext i
  obtain ⟨p, q, rfl⟩ : ∃ (p : Fin 100000) (q : Fin 4), i = ix2 p q := ⟨i 0, i 1, eq_ix2 i⟩
  have hmax : ∀ k : Fin 4, val_main_call2_v4 (F := Ideal) x0 x1 x2 x3 x4 x5 (ix2 p k)
      = Cert.Spec.rowMax (val_main_v64 (F := Ideal) x0 x1 x2 x3 x4 x5) p := by
    intro k
    have hi : idx_main_call2_v3 (idx_main_call2_v4 (ix2 p k)) = ix1 p :=
      funext fun a => Fin.ext (by match a with | ⟨0, _⟩ => rfl)
    rw [val_main_call2_v4_apply, val_main_call2_v3_apply, val_main_call2_v2_apply, val_main_call2_v1_apply,
      val_main_call2_cst_0_apply, hi, rowmax_apply, Ideal.ofBits_def, Ideal.maximumf_def]
    exact Cert.Spec.max_bot_rowMax _ p
  have hv5 : ∀ k : Fin 4, val_main_call2_v5 (F := Ideal) x0 x1 x2 x3 x4 x5 (ix2 p k)
      = val_main_v64 (F := Ideal) x0 x1 x2 x3 x4 x5 (ix2 p k)
        - Cert.Spec.rowMax (val_main_v64 (F := Ideal) x0 x1 x2 x3 x4 x5) p := by
    intro k
    rw [val_main_call2_v5_apply, hmax k, Ideal.subf_def]
  have hlog : val_main_call2_v10 (F := Ideal) x0 x1 x2 x3 x4 x5 (ix2 p q)
      = Ideal.log (∑ k : Fin 4, Ideal.exp (val_main_v64 (F := Ideal) x0 x1 x2 x3 x4 x5 (ix2 p k)
          - Cert.Spec.rowMax (val_main_v64 (F := Ideal) x0 x1 x2 x3 x4 x5) p)) := by
    rw [val_main_call2_v10_apply, val_main_call2_v9_apply, val_main_call2_v8_apply, val_main_call2_v7_apply,
      val_main_call2_cst_1_apply, Ideal.hostUnary_log_def, Ideal.ofBits_def, Ideal.ofBits_zero_f32, zero_add]
    refine congrArg Ideal.log (Finset.sum_congr rfl fun k _ => ?_)
    have hi : idx_main_call2_v7 (idx_main_call2_v8 (idx_main_call2_v10 (ix2 p q))) k = ix2 p k :=
      funext fun a => Fin.ext (by match a with | ⟨0, _⟩ => rfl | ⟨1, _⟩ => rfl)
    rw [hi, val_main_call2_v6_apply, Ideal.hostUnary_exp_def, hv5 k]
  rw [val_main_v65_apply, hv5 q, hlog, Cert.Spec.logSoftmax_apply, Ideal.subf_def]

end Cert.ReferenceIdeal.LastStep

end
-- ==== Proof.Boundaries.lean ====
import proofs.«144812_j40638980555308_1_alg».proof.Proof.Gen.KernelIdeal.Frame
import proofs.«144812_j40638980555308_1_alg».proof.Proof.Stretches
import proofs.«144812_j40638980555308_1_alg».proof.Proof.FirstProduct
import proofs.«144812_j40638980555308_1_alg».proof.Proof.SecondProduct
import proofs.«144812_j40638980555308_1_alg».proof.Proof.LastStep
import proofs.«144812_j40638980555308_1_alg».proof.Proof.RefLastStep

/-!
  What the kernel program's buffers hold at each boundary between its plain stretches and its three pipelined regions,
  at the ideal values, as the array program's stages of the launch arguments:

    launch → edge list, edge weights → [region: features · W1] → aggregate, bias, rectifier
           → [region: hidden · W2] → aggregate, bias → [region: row-wise log-softmax] → result.

  A pipelined region changes only its result array, which ends at the matrix product (or the log-softmax) of the arrays
  the region found; a plain stretch changes only the buffers it writes. The matrix product read entry by entry is the
  array program's `dot_general` read entry by entry (both are the sum over the contracted axis), and its
  log-softmax is the same row-wise function, so stage by stage the two programs hold the same arrays.
-/

set_option maxRecDepth 16384

open scoped BigOperators

noncomputable section

namespace Cert.KernelIdeal.Boundaries

open Idealize.ShloMosaic Idealize.ShloMosaic.TcCoe Idealize.ShloMosaic.ValueIdx Idealize.SL.Sem
open Cert.KernelIdeal Cert.KernelIdeal.Gen
open Cert.ReferenceIdeal.ReadCopy

/-! ## The matrix product is the array program's contraction -/

/-- The first layer's product: both read at entry (p, q) are the sum over the 512 features. -/
theorem prod1_eq (x0 : (⟨S100000x512, .f32⟩ : BufTy).Contents (Elt Ideal)) (x2 : (⟨S512x16, .f32⟩ : BufTy).Contents (Elt Ideal)) :
    Cert.Spec.matProd (M := 100000) (K := 512) (N := 16) x0 x2 = val_main_v30 (F := Ideal) x0 x2 := by
  funext i
  obtain ⟨p, q, rfl⟩ : ∃ (p : Fin 100000) (q : Fin 16), i = ix2 p q := ⟨i 0, i 1, eq_ix2 i⟩
  rw [Cert.Spec.matProd_apply, val_main_v30_apply]
  refine Finset.sum_congr rfl fun k _ => ?_
  have hl : lidx_main_v30 (ix2 p q) k = ix2 p k :=
    funext fun a => Fin.ext (by match a with | ⟨0, _⟩ => rfl | ⟨1, _⟩ => rfl)
  have hr : ridx_main_v30 (ix2 p q) k = ix2 k q :=
    funext fun a => Fin.ext (by match a with | ⟨0, _⟩ => rfl | ⟨1, _⟩ => rfl)
  rw [hl, hr]

/-- The second layer's product: both read at entry (p, q) are the sum over the 16 hidden units. -/
theorem prod2_eq (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x4, .f32⟩ : BufTy).Contents (Elt Ideal)) :
    Cert.Spec.matProd (M := 100000) (K := 16) (N := 4) (val_main_v47 (F := Ideal) x0 x1 x2 x3) x4
      = val_main_v48 (F := Ideal) x0 x1 x2 x3 x4 := by
  funext i
  obtain ⟨p, q, rfl⟩ : ∃ (p : Fin 100000) (q : Fin 4), i = ix2 p q := ⟨i 0, i 1, eq_ix2 i⟩
  rw [Cert.Spec.matProd_apply, val_main_v48_apply]
  refine Finset.sum_congr rfl fun k _ => ?_
  have hl : lidx_main_v48 (ix2 p q) k = ix2 p k :=
    funext fun a => Fin.ext (by match a with | ⟨0, _⟩ => rfl | ⟨1, _⟩ => rfl)
  have hr : ridx_main_v48 (ix2 p q) k = ix2 k q :=
    funext fun a => Fin.ext (by match a with | ⟨0, _⟩ => rfl | ⟨1, _⟩ => rfl)
  rw [hl, hr]

variable (m : (ℓ : Loc nD τ sig) → Buf (Elt Ideal) ℓ) (ρ : Dev nD → PrngReg)

/-! ## Entering the first region -/

theorem entry1_arg0 (c : Dev nD) : W3 m ρ c (Proc.devRef .tc main_arg0) = (m ((c : Thread nD τ).loc main_arg0)) :=
  Stretches.before1_arg0 (W0 m ρ c)
theorem entry1_arg2 (c : Dev nD) : W3 m ρ c (Proc.devRef .tc main_arg2) = (m ((c : Thread nD τ).loc main_arg2)) :=
  Stretches.before1_arg2 (W0 m ρ c)
theorem entry1_arg3 (c : Dev nD) : W3 m ρ c (Proc.devRef .tc main_arg3) = (m ((c : Thread nD τ).loc main_arg3)) :=
  Stretches.before1_arg3 (W0 m ρ c)
theorem entry1_arg4 (c : Dev nD) : W3 m ρ c (Proc.devRef .tc main_arg4) = (m ((c : Thread nD τ).loc main_arg4)) :=
  Stretches.before1_arg4 (W0 m ρ c)
theorem entry1_arg5 (c : Dev nD) : W3 m ρ c (Proc.devRef .tc main_arg5) = (m ((c : Thread nD τ).loc main_arg5)) :=
  Stretches.before1_arg5 (W0 m ρ c)
theorem entry1_src (c : Dev nD) : W3 m ρ c (Proc.devRef .tc main_v3) = val_main_v3 (F := Ideal) (m ((c : Thread nD τ).loc main_arg1)) :=
  Stretches.before1_src (W0 m ρ c)
theorem entry1_dst (c : Dev nD) : W3 m ρ c (Proc.devRef .tc main_v6) = val_main_v6 (F := Ideal) (m ((c : Thread nD τ).loc main_arg1)) :=
  Stretches.before1_dst (W0 m ρ c)
theorem entry1_norm (c : Dev nD) : W3 m ρ c (Proc.devRef .tc main_v29) = val_main_v29 (F := Ideal) (m ((c : Thread nD τ).loc main_arg1)) :=
  Stretches.before1_norm (W0 m ρ c)

/-! ## Leaving the first region: its result array is the first product, everything else as entered -/

theorem exit1_prod (c : Dev nD) :
    W4 m ρ c (Proc.devRef .tc main_v30) = val_main_v30 (F := Ideal) (m ((c : Thread nD τ).loc main_arg0)) (m ((c : Thread nD τ).loc main_arg2)) := by
  refine (W4_arr m ρ c 2).trans ((FirstProduct.arr_eq (V3 m ρ) c).trans ?_)
  show Cert.Spec.matProd (M := 100000) (K := 512) (N := 16) (W3 m ρ c (Proc.devRef .tc main_arg0)) (W3 m ρ c (Proc.devRef .tc main_arg2)) = _
  rw [entry1_arg0 m ρ c, entry1_arg2 m ρ c]
  exact prod1_eq _ _
theorem exit1_src (c : Dev nD) : W4 m ρ c (Proc.devRef .tc main_v3) = val_main_v3 (F := Ideal) (m ((c : Thread nD τ).loc main_arg1)) :=
  (W4_of_ne m ρ c main_v3 (by decide)).trans (entry1_src m ρ c)
theorem exit1_dst (c : Dev nD) : W4 m ρ c (Proc.devRef .tc main_v6) = val_main_v6 (F := Ideal) (m ((c : Thread nD τ).loc main_arg1)) :=
  (W4_of_ne m ρ c main_v6 (by decide)).trans (entry1_dst m ρ c)
theorem exit1_norm (c : Dev nD) : W4 m ρ c (Proc.devRef .tc main_v29) = val_main_v29 (F := Ideal) (m ((c : Thread nD τ).loc main_arg1)) :=
  (W4_of_ne m ρ c main_v29 (by decide)).trans (entry1_norm m ρ c)
theorem exit1_arg3 (c : Dev nD) : W4 m ρ c (Proc.devRef .tc main_arg3) = (m ((c : Thread nD τ).loc main_arg3)) :=
  (W4_of_ne m ρ c main_arg3 (by decide)).trans (entry1_arg3 m ρ c)
theorem exit1_arg4 (c : Dev nD) : W4 m ρ c (Proc.devRef .tc main_arg4) = (m ((c : Thread nD τ).loc main_arg4)) :=
  (W4_of_ne m ρ c main_arg4 (by decide)).trans (entry1_arg4 m ρ c)
theorem exit1_arg5 (c : Dev nD) : W4 m ρ c (Proc.devRef .tc main_arg5) = (m ((c : Thread nD τ).loc main_arg5)) :=
  (W4_of_ne m ρ c main_arg5 (by decide)).trans (entry1_arg5 m ρ c)

/-! ## Entering the second region -/

theorem entry2_hidden (c : Dev nD) :
    W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  Stretches.before2_hidden (W4 m ρ c) _ _ _ _ (exit1_prod m ρ c) (exit1_src m ρ c) (exit1_dst m ρ c) (exit1_norm m ρ c)
    (exit1_arg3 m ρ c)
theorem entry2_arg4 (c : Dev nD) : W6 m ρ c (Proc.devRef .tc main_arg4) = (m ((c : Thread nD τ).loc main_arg4)) :=
  (Stretches.before2_arg4 (W4 m ρ c)).trans (exit1_arg4 m ρ c)
theorem entry2_arg5 (c : Dev nD) : W6 m ρ c (Proc.devRef .tc main_arg5) = (m ((c : Thread nD τ).loc main_arg5)) :=
  (Stretches.before2_arg5 (W4 m ρ c)).trans (exit1_arg5 m ρ c)
theorem entry2_src (c : Dev nD) : W6 m ρ c (Proc.devRef .tc main_v3) = val_main_v3 (F := Ideal) (m ((c : Thread nD τ).loc main_arg1)) :=
  (Stretches.before2_src (W4 m ρ c)).trans (exit1_src m ρ c)
theorem entry2_dst (c : Dev nD) : W6 m ρ c (Proc.devRef .tc main_v6) = val_main_v6 (F := Ideal) (m ((c : Thread nD τ).loc main_arg1)) :=
  (Stretches.before2_dst (W4 m ρ c)).trans (exit1_dst m ρ c)
theorem entry2_norm (c : Dev nD) : W6 m ρ c (Proc.devRef .tc main_v29) = val_main_v29 (F := Ideal) (m ((c : Thread nD τ).loc main_arg1)) :=
  (Stretches.before2_norm (W4 m ρ c)).trans (exit1_norm m ρ c)

/-! ## Leaving the second region: its result array is the second product -/

theorem exit2_prod (c : Dev nD) :
    W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((SecondProduct.arr_eq (V6 m ρ) c).trans ?_)
  show Cert.Spec.matProd (M := 100000) (K := 16) (N := 4) (W6 m ρ c (Proc.devRef .tc main_v47)) (W6 m ρ c (Proc.devRef .tc main_arg4)) = _
  rw [entry2_hidden m ρ c, entry2_arg4 m ρ c]
  exact prod2_eq _ _ _ _ _
theorem exit2_src (c : Dev nD) : W7 m ρ c (Proc.devRef .tc main_v3) = val_main_v3 (F := Ideal) (m ((c : Thread nD τ).loc main_arg1)) :=
  (W7_of_ne m ρ c main_v3 (by decide)).trans (entry2_src m ρ c)
theorem exit2_dst (c : Dev nD) : W7 m ρ c (Proc.devRef .tc main_v6) = val_main_v6 (F := Ideal) (m ((c : Thread nD τ).loc main_arg1)) :=
  (W7_of_ne m ρ c main_v6 (by decide)).trans (entry2_dst m ρ c)
theorem exit2_norm (c : Dev nD) : W7 m ρ c (Proc.devRef .tc main_v29) = val_main_v29 (F := Ideal) (m ((c : Thread nD τ).loc main_arg1)) :=
  (W7_of_ne m ρ c main_v29 (by decide)).trans (entry2_norm m ρ c)
theorem exit2_arg5 (c : Dev nD) : W7 m ρ c (Proc.devRef .tc main_arg5) = (m ((c : Thread nD τ).loc main_arg5)) :=
  (W7_of_ne m ρ c main_arg5 (by decide)).trans (entry2_arg5 m ρ c)

/-! ## Entering the third region: the class scores -/

theorem entry3_scores (c : Dev nD) :
    W8 m ρ c (Proc.devRef .tc main_v64)
      = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.before3_scores (W7 m ρ c) _ _ _ _ _ _ (exit2_prod m ρ c) (exit2_src m ρ c) (exit2_dst m ρ c) (exit2_norm m ρ c)
    (exit2_arg5 m ρ c)

/-! ## Leaving the third region: the result -/

/-- The result array at the last boundary is the array program's result of the launch arguments. -/
theorem result_eq (c : Dev nD) :
    W9 m ρ c (Proc.devRef .tc main_v65)
      = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 1).trans ((LastStep.arr_eq (V8 m ρ) c).trans ?_)
  show Cert.Spec.logSoftmax (M := 100000) (N := 4) (W8 m ρ c (Proc.devRef .tc main_v64)) = _
  rw [entry3_scores m ρ c]
  exact (Cert.ReferenceIdeal.LastStep.val_main_v65_eq_logSoftmax _ _ _ _ _ _).symm

end Cert.KernelIdeal.Boundaries

end
-- ==== Proof.lean ====
/-
  A two-layer graph convolution network on 100000 nodes and 3.2 million edges, ending in a row-wise log-softmax over
  four classes, computed two ways:

    * the kernel program keeps the edge bookkeeping (self loops, degrees, the symmetric normalisation, gather · scale ·
      scatter-add, biases, the rectifier) as plain array operations and runs three pipelined regions between them: the
      node features [100000, 512] times the first weights [512, 16] in fifty row blocks, the hidden activations
      [100000, 16] times the second weights [16, 4] in four row blocks, and the log-softmax of the class scores
      [100000, 4] in four row blocks;
    * the array program does the same bookkeeping with the same operations and takes the two products and the
      log-softmax as whole-array operations.

  Over the extended reals a change of float format is the identity and a matrix unit accumulating into zero gives the
  plain sum of products, so each product region leaves in its result array the matrix product of the arrays it found,
  entry (p, q) = Σ_k l(p, k) · r(k, q), which is what the array program's contraction is entry by entry; the last region
  leaves (a − max) − log Σ exp (a − max) row by row, which is the array program's log-softmax (its one extra maximum
  with −∞ changes nothing). No law of arithmetic beyond reading both sides' sums and maxima over the same index sets is
  needed, so the finiteness of the inputs is never used. Between the regions both programs apply the very same
  operations to equal arrays, so stage by stage they hold the same arrays (Proof/Stretches.lean, Proof/Boundaries.lean),
  and the results are equal.

  The three frames: the two kernel programs' are the generated frame certificates; the array program's is its run with
  the result dropped. The idealization rewrote nothing, so there is nothing to preserve.
-/
import proofs.«144812_j40638980555308_1_alg».proof.Defs
import proofs.«144812_j40638980555308_1_alg».proof.Proof.Gen.Kernel
import proofs.«144812_j40638980555308_1_alg».proof.Proof.Gen.Kernel.Skeleton
import proofs.«144812_j40638980555308_1_alg».proof.Proof.Gen.Kernel.Launch
import proofs.«144812_j40638980555308_1_alg».proof.Proof.Gen.Kernel.Points
import proofs.«144812_j40638980555308_1_alg».proof.Proof.Gen.Kernel.Frame
import proofs.«144812_j40638980555308_1_alg».proof.Proof.Gen.KernelIdeal
import proofs.«144812_j40638980555308_1_alg».proof.Proof.Gen.KernelIdeal.Skeleton
import proofs.«144812_j40638980555308_1_alg».proof.Proof.Gen.KernelIdeal.Launch
import proofs.«144812_j40638980555308_1_alg».proof.Proof.Gen.KernelIdeal.Points
import proofs.«144812_j40638980555308_1_alg».proof.Proof.Gen.KernelIdeal.Frame
import proofs.«144812_j40638980555308_1_alg».proof.Proof.Gen.ReferenceIdeal
import proofs.«144812_j40638980555308_1_alg».proof.Proof.Gen.Pre_finite_inputs
import proofs.«144812_j40638980555308_1_alg».proof.Proof.RefRun
import proofs.«144812_j40638980555308_1_alg».proof.Proof.RefRead
import proofs.«144812_j40638980555308_1_alg».proof.Proof.ResultRun
import proofs.«144812_j40638980555308_1_alg».proof.Proof.Boundaries
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the array program runs, and leaves its arguments alone
    exact fun m ρ _ => (θ_run Cert.ReferenceIdeal.defs _ _).mono (fun _ h c => (h c).2) (Cert.ReferenceIdeal.RunCopy.run (F := Ideal) m ρ)
  · -- both programs end at the array program's last stage of the (agreeing) arguments
    intro m ρ m' ρ' _ hagree
    refine ⟨fun c => Cert.ReferenceIdeal.ReadCopy.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
    · exact (θ_run Cert.KernelIdeal.defs _ _).mono
        (fun r h c => ⟨(h c).1.trans (Cert.KernelIdeal.Boundaries.result_eq m ρ c), (h c).2⟩) (Cert.KernelIdeal.ResultRun.run m ρ)
    · refine (θ_run Cert.ReferenceIdeal.defs _ _).mono (fun r h c => ⟨(h c).1.trans ?_, (h c).2⟩) (Cert.ReferenceIdeal.RunCopy.run (F := Ideal) m' ρ')
      refine (Cert.ReferenceIdeal.ReadCopy.val_main_v65_eq m' c).trans ?_
      rw [(hagree c).1, (hagree c).2.1, (hagree c).2.2.1, (hagree c).2.2.2.1, (hagree c).2.2.2.2.1, (hagree c).2.2.2.2.2]⟩

end Cert.Proof

end
